-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64 .f32) (main_arg6 : FVec F S64x128 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) (main_arg6 : FVec F S64x128 .f32) (main_arg7 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S5000x64 : Shape := ⟨2, ![5000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x128 : Shape := ⟨2, ![100000, 128]⟩
abbrev S5000x128 : Shape := ⟨2, ![5000, 128]⟩
abbrev S5000 : Shape := ⟨1, ![5000]⟩
abbrev S5000x1 : Shape := ⟨2, ![5000, 1]⟩
abbrev S1x128 : Shape := ⟨2, ![1, 128]⟩

abbrev nBuf : Space → Nat
  | .hbm => 72
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S100000x64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64, .f32⟩
  | .local _ .vmem, ⟨9, _⟩ => ⟨S64x128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  dot_S5000x64_S64x64_S5000x64_1_0_0_1_n_n_wf : DotDims.WF S5000x64 S64x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S100000x128 : Shape := ⟨2, ![100000, 128]⟩
abbrev S1x128 : Shape := ⟨2, ![1, 128]⟩

abbrev nBuf : Space → Nat
  | .hbm => 110
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S100000x64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000, .f32⟩
  | .hbm, ⟨76, _⟩ => ⟨S100000x1, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000, .f32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | .hbm, ⟨107, _⟩ => ⟨S_, .f32⟩
  | .hbm, ⟨108, _⟩ => ⟨S100000x128, .f32⟩
  | .hbm, ⟨109, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call2_cst : Ref sig .tc := ⟨.hbm, 107, rfl⟩
abbrev main_call2_v0 : Ref sig .tc := ⟨.hbm, 108, rfl⟩
abbrev main_v78 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.RowSpec.lean ====
/-
  THE MATHEMATICS OF ONE ROW.  Both programs treat the 100000 node rows independently, apart from the
  neighbourhood sums in the middle, which they compute with the same host operations.  What happens to one row:

  • first product: a row x (64 entries) times the 64×64 matrix W_conv: entry q is Σ_k x_k · W[k, q];
  • after the neighbourhood sums, a row r (64 entries) is rectified, a = max(r, 0); centred on its mean
    μ = (Σ_k a_k) / 64, d = a − μ; scaled by s = (v + ε)^(-1/2) with v = (Σ_k d_k²) / 64; given the gain and the
    offset, ℓ_k = d_k · s · γ_k + β_k; multiplied by the 64×128 matrix W1, offset by b1 and rectified again:
    entry q is max(Σ_k ℓ_k · W1[k, q] + b1_q, 0).

  All of it on the extended reals, with the quotient and the inverse square root the ideal ones.  The three
  float constants (0, 64 and ε) stay as their words: the same words stand on both sides and are never evaluated.
-/
import Idealize.ShloMosaic.PureOps.Ideal
import Idealize.ShloMosaic.Lib.ValueIdx

noncomputable section

open scoped BigOperators

namespace Cert.Rows

open Idealize.ShloMosaic Idealize.ShloMosaic.ValueIdx

/-- The word 0.0. -/
abbrev zeroW : EReal := Ideal.ofBits .f32 0x00000000#32
/-- The word 64.0, the length of a row. -/
abbrev lenW : EReal := Ideal.ofBits .f32 0x42800000#32
/-- The word of the variance's guard ε. -/
abbrev epsW : EReal := Ideal.ofBits .f32 0x3727C5AC#32

/-- Entry `q` of a row of 64 entries times a 64×p matrix. -/
def rowDot {p : ℕ} (W : (⟨2, ![64, p]⟩ : Shape).Idx → EReal) (row : Fin 64 → EReal) (q : Fin p) : EReal :=
  ∑ k : Fin 64, row k * W (ix2 k q)

/-- A row's mean: its sum over 64. -/
def rowMean (a : Fin 64 → EReal) : EReal := Ideal.div (∑ k : Fin 64, a k) lenW

/-- The rectified row. -/
def rowRelu (row : Fin 64 → EReal) (k : Fin 64) : EReal := max (row k) zeroW

/-- The rectified row centred on its mean. -/
def rowCentred (row : Fin 64 → EReal) (k : Fin 64) : EReal := rowRelu row k - rowMean (rowRelu row)

/-- The scale of the normalisation: the inverse square root of the guarded variance. -/
def rowScale (row : Fin 64 → EReal) : EReal :=
  Ideal.rsqrt (rowMean (fun k => rowCentred row k * rowCentred row k) + epsW)

/-- The normalised row with its gain and offset. -/
def rowNorm (γ β : (⟨1, ![64]⟩ : Shape).Idx → EReal) (row : Fin 64 → EReal) (k : Fin 64) : EReal :=
  rowCentred row k * rowScale row * γ (ix1 k) + β (ix1 k)

/-- What the second kernel makes of one row of the neighbourhood sums: entry `q` of the 128. -/
def rowPost (γ β : (⟨1, ![64]⟩ : Shape).Idx → EReal) (W : (⟨2, ![64, 128]⟩ : Shape).Idx → EReal)
    (b : (⟨1, ![128]⟩ : Shape).Idx → EReal) (row : Fin 64 → EReal) (q : Fin 128) : EReal :=
  max (rowDot W (rowNorm γ β row) q + b (ix1 q)) zeroW

/-- The first product as an array: row `r` of x times W_conv. -/
def mmArr (x : (⟨2, ![100000, 64]⟩ : Shape).Idx → EReal) (W : (⟨2, ![64, 64]⟩ : Shape).Idx → EReal) :
    (⟨2, ![100000, 64]⟩ : Shape).Idx → EReal :=
  fun i => rowDot W (fun k => x (ix2 (i 0) k)) (i 1)

/-- The last stage as an array: `rowPost` of each row of the neighbourhood sums. -/
def postArr (A : (⟨2, ![100000, 64]⟩ : Shape).Idx → EReal) (γ β : (⟨1, ![64]⟩ : Shape).Idx → EReal)
    (W : (⟨2, ![64, 128]⟩ : Shape).Idx → EReal) (b : (⟨1, ![128]⟩ : Shape).Idx → EReal) :
    (⟨2, ![100000, 128]⟩ : Shape).Idx → EReal :=
  fun i => rowPost γ β W b (fun k => A (ix2 (i 0) k)) (i 1)

end Cert.Rows

end
-- ==== Proof.LibBlockOps.lean ====
/-
  BLOCK OPERATIONS READ AT AN ENTRY — a general lemma file (no program is named here).

  Facts about matrices of extended reals, each at an entry given by its two coordinates:
  • the product of an m×k block by a k×n block accumulated into the zero block — the contraction over the left factor's
    second axis and the right factor's first — is the sum over the contracted coordinate of the products of the entries;
  • a column (an a×1 block) broadcast over b columns reads, at (p, c), the column's entry in row p.
-/
import Idealize.ShloMosaic.PureOps.Ideal.Laws
import Idealize.ShloMosaic.Lib.ValueIdx
import Idealize.ShloMosaic.Lib.ValueLayout

noncomputable section

open scoped BigOperators

namespace BlockOps

open Idealize.ShloMosaic Idealize.ShloMosaic.ValueIdx

variable {m k n : Nat}

/-- The dimension numbers of the plain product of an m×k by a k×n matrix: contract the left factor's axis 1 with the
    right factor's axis 0; rows of the left and columns of the right survive. The argument is their well-formedness. -/
abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left factor's index at output entry (a, b) and contracted coordinate c is (a, c). -/
theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

/-- The right factor's index there is (c, b). -/
theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

/-- The block product into the zero block, at entry (a, b): the sum over c of A[a, c] · B[c, b]. At the ideal values. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowCol w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowCol w) k rfl rfl).symm]
  refine Finset.sum_congr rfl fun c _ => ?_
  rw [rowCol_lhsIdx, rowCol_rhsIdx]

/-- An a×1 column broadcast over b columns reads, at (p, c), the column's entry in row p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end BlockOps

end
-- ==== Proof.MmBody.lean ====
/-
  THE FIRST KERNEL'S BLOCK, ENTRY BY ENTRY.  The body stores the product of its 5000×64 block of x by the whole
  64×64 matrix W_conv, accumulated into the zero block; the two narrowings to bf16 are the identity on the extended
  reals.  So entry (p, q) of what it stores is row p of the block times column q of W_conv.
-/
import proofs.«147293_j89172111000348_1_alg».proof.Proof.Gen.KernelIdeal.Skeleton
import proofs.«147293_j89172111000348_1_alg».proof.Proof.RowSpec
import proofs.«147293_j89172111000348_1_alg».proof.Proof.LibBlockOps

noncomputable section

namespace Cert.KernelIdeal.Body

open Cert.KernelIdeal Cert.KernelIdeal.Gen Idealize.ShloMosaic Idealize.ShloMosaic.ValueIdx Cert.Rows

/-- Entry (p, q) of the stored block: Σ_k x[p, k] · W[k, q]. -/
theorem mm_pay_apply (x : FVec Ideal S5000x64 .f32) (w : FVec Ideal S64x64 .f32) (p : Fin 5000) (q : Fin 64) :
    k0_pay1 (F := Ideal) x w (ix2 p q) = rowDot w (fun k => x (ix2 p k)) q := by
  unfold k0_pay1 rowDot
  exact BlockOps.matmul_zero_apply dot_S5000x64_S64x64_S5000x64_1_0_0_1_n_n_wf none
    (truncf .bf16 x bitsLt_bf16_f32) (truncf .bf16 w bitsLt_bf16_f32) p q

end Cert.KernelIdeal.Body

end
-- ==== Proof.MmArray.lean ====
/-
  THE FIRST KERNEL'S ARRAY.  Grid point t loads rows 5000·t … 5000·t + 4999 of x (all 64 columns) and the whole of
  W_conv, and writes back rows 5000·t … of the result.  The twenty row blocks tile the 100000 rows, and entry (p, q)
  of a stored block is row 5000·t + p of x times column q of W_conv: so the array the region leaves is `mmArr` of
  the arrays it found, x · W_conv row by row.
-/
import proofs.«147293_j89172111000348_1_alg».proof.Proof.Gen.KernelIdeal.Frame
import proofs.«147293_j89172111000348_1_alg».proof.Proof.MmBody
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx Cert.Rows
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl

/-- The block indices over the grid: the x block and the result block move together down the rows, and stay in
    column block 0; W_conv's block is always the whole matrix. -/
theorem mm_idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the twenty row blocks is some point's. -/
theorem mm_onto : ∀ q0 : Fin 20, ∃ t : Fin cfg0.N, win0_2.index t = ![q0.val, 0] :=
  (by decide +kernel : ∀ q0 : Fin 20, ∃ t : Fin grid0.N, win0_2.index t = ![q0.val, 0])

/-- What point t writes back is block t of `mmArr` of the arrays as the region finds them. -/
theorem mm_flushed (c : Dev nD) (t : Fin cfg0.N) :
    (dat0 V c).flushed 2 t = ((cfg0.win 2).blk t).view.read (Elt Ideal) (mmArr (V c main_arg0) (V c main_arg2)) := by
  show (cfg0.win 2).cut (grid0.coords t) ((dat0 V c).after 2 t) = _
  rw [after0_2]
  unfold out0_2
  rw [View.canon_unit_zero off2]
  simp only [View.ld_unit_zero (S := S5000x64) off2, View.ld_unit_zero (S := S64x64) off2]
  obtain ⟨e0, e1, e2, e3, e4⟩ := mm_idx t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = mmArr (V c main_arg0) (V c main_arg2) (((cfg0.win 2).blk t).view.emb (ix2 p q))
  refine (Body.mm_pay_apply (iblk0 V c 0 t) (iblk0 V c 1 t) p q).trans ?_
  unfold mmArr rowDot
  refine Finset.sum_congr rfl fun k _ => ?_
  have hx : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have hw : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  exact congrArg₂ (fun a b : EReal => a * b) hx hw

/-- An index of the result array is in point t's block iff each coordinate is in the block's range on its axis. -/
theorem mm_mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The row blocks cover the array: row r lies in block r / 5000. -/
theorem mm_cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := mm_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mm_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array the first region leaves: x · W_conv, row by row, of the arrays it found. -/
theorem mm_final (c : Dev nD) : (dat0 V c).arrAt 2 cfg0.N = mmArr (V c main_arg0) (V c main_arg2) :=
  (dat0 V c).arrAt_eq_of_cover 2 _ (fun t _ => mm_flushed V c t) mm_cover

end Cert.KernelIdeal.Blocks

end
-- ==== Proof.LibKeepdims.lean ====
/-
  A VECTOR TURNED INTO A COLUMN, READ AT AN ENTRY — a general lemma file (no program is named here).

  An array of extent a cast to the a×1 column of the same entries reads, in row p, the vector's entry p: the two
  positions are the same in row-major order (p·1 + 0 = p). This is the shape a row sum takes when its reduced axis
  is kept as a unit axis.
-/
import Idealize.ShloMosaic.Lib.Pipeline.Value
import Idealize.ShloMosaic.Lib.ValueIdx

noncomputable section

namespace Keepdims

open Idealize.ShloMosaic Idealize.ShloMosaic.ValueIdx

/-- An `[a]` array cast to `[a, 1]` reads, at `(p, u)`, the operand at `p`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Keepdims

end
-- ==== Proof.PostBody.lean ====
/-
  THE SECOND KERNEL'S BLOCK, ENTRY BY ENTRY.  The body works on a 5000×64 block of the neighbourhood sums, row by
  row: it rectifies, takes the row's mean as a lane sum kept as a column and divided by 64, centres, takes the mean of
  the squares the same way, adds ε, takes the inverse square root, scales, applies the gain and the offset (rows of 64
  broadcast down the block), multiplies by W1 into the zero block, adds b1 (a row of 128 broadcast down) and rectifies.
  The stored value is cut here into those stages, each read at an entry; entry (p, q) of what is stored is then
  `rowPost` of row p of the block, at q.
-/
import proofs.«147293_j89172111000348_1_alg».proof.Proof.Gen.KernelIdeal.Skeleton
import proofs.«147293_j89172111000348_1_alg».proof.Proof.RowSpec
import proofs.«147293_j89172111000348_1_alg».proof.Proof.LibBlockOps
import proofs.«147293_j89172111000348_1_alg».proof.Proof.LibKeepdims
import Idealize.ShloMosaic.PureOps.Ideal.Laws
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.Rows

/-! ## The stages of the stored value -/

/-- The rectified block. -/
def stageA (x0 : FVec Ideal S5000x64 .f32) : FVec Ideal S5000x64 .f32 :=
  maximumf (shapeCast S5000x64 x0 shapeCasts_S5000x64_S5000x64) (broadcast S5000x64 (Scalar.ofBits (F := Ideal) .f32 0x00000000#32))

/-- The column of row means of a block: the lane sums, kept as a column, over the word 64. -/
def meanCol (A : FVec Ideal S5000x64 .f32) : FVec Ideal S5000x1 .f32 :=
  divf (shapeCast S5000x1 (multiReduction (F := Ideal) .add [1] S5000 A 0x00000000#32 reduces_S5000x64_S5000 (.inl rfl) rfl) shapeCasts_S5000_S5000x1)
    (broadcast S5000x1 (Scalar.ofBits (F := Ideal) .f32 0x42800000#32))

/-- A block with each row's mean taken off. -/
def centred (A : FVec Ideal S5000x64 .f32) : FVec Ideal S5000x64 .f32 :=
  subf A (broadcastTo S5000x64 (meanCol A) broadcasts_S5000x1_S5000x64)

/-- The column of scales: the inverse square root of the guarded mean square of the centred rows. -/
def scaleCol (A : FVec Ideal S5000x64 .f32) : FVec Ideal S5000x1 .f32 :=
  rsqrt (addf (meanCol (mulf (centred A) (centred A))) (broadcast S5000x1 (Scalar.ofBits (F := Ideal) .f32 0x3727C5AC#32)))

/-- The normalised block with the gain and the offset. -/
def stageLn (A : FVec Ideal S5000x64 .f32) (g be : FVec Ideal S64 .f32) : FVec Ideal S5000x64 .f32 :=
  addf (mulf (mulf (centred A) (broadcastTo S5000x64 (scaleCol A) broadcasts_S5000x1_S5000x64))
      (broadcastTo S5000x64 (shapeCast S1x64 g shapeCasts_S64_S1x64) broadcasts_S1x64_S5000x64))
    (broadcastTo S5000x64 (shapeCast S1x64 be shapeCasts_S64_S1x64) broadcasts_S1x64_S5000x64)

/-- The product with W1 into the zero block, offset by b1, rectified. -/
def stageOut (Ln : FVec Ideal S5000x64 .f32) (W : FVec Ideal S64x128 .f32) (b1 : FVec Ideal S128 .f32) : FVec Ideal S5000x128 .f32 :=
  maximumf (addf (matmul dot_S5000x64_S64x128_S5000x128_1_0_0_1_n_n none (truncf .bf16 Ln bitsLt_bf16_f32) (truncf .bf16 W bitsLt_bf16_f32)
        (constant S5000x128 .f32 0x00000000#32))
      (broadcastTo S5000x128 (shapeCast S1x128 b1 shapeCasts_S128_S1x128) broadcasts_S1x128_S5000x128))
    (broadcast S5000x128 (Scalar.ofBits (F := Ideal) .f32 0x00000000#32))

/-- The stored value is the composition of the stages. -/
theorem post_pay_eq_stages (x0 : FVec Ideal S5000x64 .f32) (g be : FVec Ideal S64 .f32) (W : FVec Ideal S64x128 .f32) (b1 : FVec Ideal S128 .f32) :
    k1_pay1 (F := Ideal) x0 g be W b1 = stageOut (stageLn (stageA x0) g be) W b1 := rfl

/-! ## Each stage at an entry -/

theorem stageA_apply (x0 : FVec Ideal S5000x64 .f32) (p : Fin 5000) (k : Fin 64) :
    stageA x0 (ix2 p k) = rowRelu (fun k => x0 (ix2 p k)) k := by
  unfold stageA rowRelu
  rw [maximumf_apply, broadcast_apply, shapeCast_self]
  rfl

/-- The column of means reads, in row p, the mean of row p. -/
theorem meanCol_apply (A : FVec Ideal S5000x64 .f32) (p : Fin 5000) (u : Fin 1) :
    meanCol A (ix2 p u) = rowMean (fun k => A (ix2 p k)) := by
  unfold meanCol
  rw [divf_apply, broadcast_apply, Keepdims.shapeCast_a_a1_apply]
  unfold rowMean
  refine congrArg (fun s => Ideal.div s lenW) ?_
  refine (Ideal.multiReduction_add_single A 0x00000000#32 reduces_S5000x64_S5000 (.inl rfl) rfl (ix1 p)).trans ?_
  refine Finset.sum_congr rfl fun k _ => congrArg A ?_
  exact funext fun a => Fin.ext (by match a with | ⟨0, _⟩ => rfl | ⟨1, _⟩ => rfl)

theorem centred_apply (A : FVec Ideal S5000x64 .f32) (p : Fin 5000) (k : Fin 64) :
    centred A (ix2 p k) = A (ix2 p k) - rowMean (fun k => A (ix2 p k)) := by
  unfold centred
  rw [subf_apply, BlockOps.broadcastTo_a1_ab_apply, meanCol_apply]

theorem scaleCol_apply (A : FVec Ideal S5000x64 .f32) (p : Fin 5000) (u : Fin 1) :
    scaleCol A (ix2 p u) = Ideal.rsqrt (rowMean (fun k => centred A (ix2 p k) * centred A (ix2 p k)) + epsW) := by
  unfold scaleCol
  show Ideal.rsqrt (addf (meanCol (mulf (centred A) (centred A))) (broadcast S5000x1 (Scalar.ofBits (F := Ideal) .f32 0x3727C5AC#32)) (ix2 p u)) = _
  rw [addf_apply, broadcast_apply, meanCol_apply]
  rfl

theorem stageLn_apply (A : FVec Ideal S5000x64 .f32) (g be : FVec Ideal S64 .f32) (p : Fin 5000) (k : Fin 64) :
    stageLn A g be (ix2 p k) = centred A (ix2 p k) * scaleCol A (ix2 p (0 : Fin 1)) * g (ix1 k) + be (ix1 k) := by
  unfold stageLn
  rw [addf_apply, mulf_apply, mulf_apply, BlockOps.broadcastTo_a1_ab_apply, broadcastTo_1b_ab_apply, broadcastTo_1b_ab_apply,
    shapeCast_a_1a_apply, shapeCast_a_1a_apply]

theorem stageOut_apply (Ln : FVec Ideal S5000x64 .f32) (W : FVec Ideal S64x128 .f32) (b1 : FVec Ideal S128 .f32) (p : Fin 5000) (q : Fin 128) :
    stageOut Ln W b1 (ix2 p q) = max (rowDot W (fun k => Ln (ix2 p k)) q + b1 (ix1 q)) zeroW := by
  unfold stageOut rowDot
  rw [maximumf_apply, addf_apply, broadcast_apply, broadcastTo_1b_ab_apply, shapeCast_a_1a_apply]
  refine congrArg (fun s => max (s + b1 (ix1 q)) zeroW) ?_
  exact BlockOps.matmul_zero_apply dot_S5000x64_S64x128_S5000x128_1_0_0_1_n_n_wf none
    (truncf .bf16 Ln bitsLt_bf16_f32) (truncf .bf16 W bitsLt_bf16_f32) p q

/-! ## The stored value at an entry -/

/-- The centred rectified block, at (p, k), is the centred rectified row p at k. -/
theorem centredA_apply (x0 : FVec Ideal S5000x64 .f32) (p : Fin 5000) (k : Fin 64) :
    centred (stageA x0) (ix2 p k) = rowCentred (fun k => x0 (ix2 p k)) k := by
  rw [centred_apply, stageA_apply]
  unfold rowCentred
  exact congrArg (fun f => rowRelu (fun k => x0 (ix2 p k)) k - rowMean f) (funext fun j => stageA_apply x0 p j)

/-- Entry (p, q) of the stored block is `rowPost` of row p of the loaded block. -/
theorem post_pay_apply (x0 : FVec Ideal S5000x64 .f32) (g be : FVec Ideal S64 .f32) (W : FVec Ideal S64x128 .f32) (b1 : FVec Ideal S128 .f32)
    (p : Fin 5000) (q : Fin 128) :
    k1_pay1 (F := Ideal) x0 g be W b1 (ix2 p q) = rowPost g be W b1 (fun k => x0 (ix2 p k)) q := by
  rw [post_pay_eq_stages, stageOut_apply]
  unfold rowPost
  refine congrArg (fun f => max (rowDot W f q + b1 (ix1 q)) zeroW) (funext fun k => ?_)
  rw [stageLn_apply, scaleCol_apply, centredA_apply]
  unfold rowNorm rowScale
  exact congrArg (fun f => rowCentred (fun k => x0 (ix2 p k)) k * Ideal.rsqrt (rowMean f + epsW) * g (ix1 k) + be (ix1 k))
    (funext fun j => by rw [centredA_apply])

end Cert.KernelIdeal.Body

end
-- ==== Proof.PostArray.lean ====
/-
  THE SECOND KERNEL'S ARRAY.  Grid point t loads rows 5000·t … 5000·t + 4999 of the neighbourhood sums and the whole
  of the gain, the offset, W1 and b1, and writes back rows 5000·t … of the result (all 128 columns).  The twenty row
  blocks tile the 100000 rows, and entry (p, q) of a stored block is `rowPost` of row 5000·t + p of the sums: so the
  array the region leaves is `postArr` of the arrays it found.
-/
import proofs.«147293_j89172111000348_1_alg».proof.Proof.Gen.KernelIdeal.Frame
import proofs.«147293_j89172111000348_1_alg».proof.Proof.PostBody
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx Cert.Rows
open Idealize.ShloMosaic.Pipeline (Dat Cfg Window)

variable (V : (c : Dev nD) → (b : Ref sig .tc) → Buf (Elt Ideal) ((c : Thread nD τ).loc b))

theorem poff2 : (![0, 0] : Fin 2 → Nat) = fun _ => 0 := funext fun a => by fin_cases a <;> rfl
theorem poff1 : (![0] : Fin 1 → Nat) = fun _ => 0 := funext fun a => by fin_cases a; rfl

/-- `rowPost` at equal arguments. -/
theorem rowPost_congr {γ γ' β β' : (⟨1, ![64]⟩ : Shape).Idx → EReal} {W W' : (⟨2, ![64, 128]⟩ : Shape).Idx → EReal}
    {b b' : (⟨1, ![128]⟩ : Shape).Idx → EReal} {row row' : Fin 64 → EReal} {q q' : Fin 128}
    (hγ : γ = γ') (hβ : β = β') (hW : W = W') (hb : b = b') (hrow : row = row') (hq : q = q') :
    rowPost γ β W b row q = rowPost γ' β' W' b' row' q' := by
  subst hγ hβ hW hb hrow hq; rfl

/-- The block indices over the grid: the block of sums and the result block move together down the rows, in column
    block 0; the four parameter windows are always the whole arrays. -/
theorem post_idx : ∀ t : Fin cfg1.N, win1_0.index t (0 : Fin 2) = win1_5.index t (0 : Fin 2) ∧ win1_0.index t (1 : Fin 2) = 0
    ∧ win1_1.index t (0 : Fin 1) = 0 ∧ win1_2.index t (0 : Fin 1) = 0
    ∧ win1_3.index t (0 : Fin 2) = 0 ∧ win1_3.index t (1 : Fin 2) = 0
    ∧ win1_4.index t (0 : Fin 1) = 0
    ∧ win1_5.index t (1 : Fin 2) = 0 :=
  (by decide +kernel : ∀ t : Fin grid1.N, _)

/-- Every one of the twenty row blocks is some point's. -/
theorem post_onto : ∀ q0 : Fin 20, ∃ t : Fin cfg1.N, win1_5.index t = ![q0.val, 0] :=
  (by decide +kernel : ∀ q0 : Fin 20, ∃ t : Fin grid1.N, win1_5.index t = ![q0.val, 0])

/-- What point t writes back is block t of `postArr` of the arrays as the region finds them. -/
theorem post_flushed (c : Dev nD) (t : Fin cfg1.N) :
    (dat1 V c).flushed 5 t = ((cfg1.win 5).blk t).view.read (Elt Ideal)
      (postArr (V c main_v48) (V c main_arg4) (V c main_arg5) (V c main_arg6) (V c main_arg7)) := by
  show (cfg1.win 5).cut (grid1.coords t) ((dat1 V c).after 5 t) = _
  rw [after1_5]
  unfold out1_5
  rw [View.canon_unit_zero poff2]
  simp only [View.ld_unit_zero (S := S5000x64) poff2, View.ld_unit_zero (S := S64) poff1, View.ld_unit_zero (S := S64x128) poff2,
    View.ld_unit_zero (S := S128) poff1]
  obtain ⟨e0, e1, e2, e3, e4, e5, e6, e7⟩ := post_idx t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = postArr (V c main_v48) (V c main_arg4) (V c main_arg5) (V c main_arg6) (V c main_arg7) (((cfg1.win 5).blk t).view.emb (ix2 p q))
  refine (Body.post_pay_apply (iblk1 V c 0 t) (iblk1 V c 1 t) (iblk1 V c 2 t) (iblk1 V c 3 t) (iblk1 V c 4 t) p q).trans ?_
  unfold postArr
  have h1 : iblk1 V c 1 t = V c main_arg4 := funext fun y => by
    show V c main_arg4 (((cfg1.win 1).blk t).view.emb y) = V c main_arg4 y
    refine congrArg (V c main_arg4) (funext fun a => Fin.ext ?_)
    match a with
    | ⟨0, _⟩ => show win1_1.index t (0 : Fin 1) * 64 + 1 * (y 0).val = (y 0).val; omega
  have h2 : iblk1 V c 2 t = V c main_arg5 := funext fun y => by
    show V c main_arg5 (((cfg1.win 2).blk t).view.emb y) = V c main_arg5 y
    refine congrArg (V c main_arg5) (funext fun a => Fin.ext ?_)
    match a with
    | ⟨0, _⟩ => show win1_2.index t (0 : Fin 1) * 64 + 1 * (y 0).val = (y 0).val; omega
  have h3 : iblk1 V c 3 t = V c main_arg6 := funext fun y => by
    show V c main_arg6 (((cfg1.win 3).blk t).view.emb y) = V c main_arg6 y
    refine congrArg (V c main_arg6) (funext fun a => Fin.ext ?_)
    match a with
    | ⟨0, _⟩ => show win1_3.index t (0 : Fin 2) * 64 + 1 * (y 0).val = (y 0).val; omega
    | ⟨1, _⟩ => show win1_3.index t (1 : Fin 2) * 128 + 1 * (y 1).val = (y 1).val; omega
  have h4 : iblk1 V c 4 t = V c main_arg7 := funext fun y => by
    show V c main_arg7 (((cfg1.win 4).blk t).view.emb y) = V c main_arg7 y
    refine congrArg (V c main_arg7) (funext fun a => Fin.ext ?_)
    match a with
    | ⟨0, _⟩ => show win1_4.index t (0 : Fin 1) * 128 + 1 * (y 0).val = (y 0).val; omega
  have hrow : (fun k : Fin 64 => iblk1 V c 0 t (ix2 p k))
      = fun k : Fin 64 => V c main_v48 (ix2 ((((cfg1.win 5).blk t).view.emb (ix2 p q)) 0) k) := funext fun k => by
    show V c main_v48 (((cfg1.win 0).blk t).view.emb (ix2 p k)) = _
    refine congrArg (V c main_v48) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * k.val = k.val; omega
  have hq : q = (((cfg1.win 5).blk t).view.emb (ix2 p q)) 1 := Fin.ext (by
    show q.val = win1_5.index t (1 : Fin 2) * 128 + 1 * q.val; omega)
  exact rowPost_congr h1 h2 h3 h4 hrow hq

/-- An index of the result array is in point t's block iff each coordinate is in the block's range on its axis. -/
theorem post_mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- The row blocks cover the array: row r lies in block r / 5000. -/
theorem post_cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := post_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [post_mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The array the second region leaves: `rowPost` of every row of the sums it found, with the parameters it found. -/
theorem post_final (c : Dev nD) : (dat1 V c).arrAt 5 cfg1.N
    = postArr (V c main_v48) (V c main_arg4) (V c main_arg5) (V c main_arg6) (V c main_arg7) :=
  (dat1 V c).arrAt_eq_of_cover 5 _ (fun t _ => post_flushed V c t) post_cover

end Cert.KernelIdeal.Blocks

end
-- ==== Proof.HostBridge.lean ====
/-
  THE NEIGHBOURHOOD SUMS ARE ONE FUNCTION ON BOTH SIDES.  Between its two kernels the kernel program runs the host
  operations of the graph aggregation: the source and target index lists with the self loops appended, the degrees as
  a scatter-add of ones, their guarded inverse square roots, the per-edge weights, the gather of the rows of the first
  product, the scatter-add onto the targets, and the bias.  The reference runs the same operations on its own first
  product.  So what the kernel program holds at the second kernel's entry is the reference's stage-48 function of
  the same index array and bias, once the two first products agree.  Stated for any float family: nothing here
  depends on what the operations compute, only on their being the same.
-/
import proofs.«147293_j89172111000348_1_alg».proof.Proof.Gen.KernelIdeal.Frame
import proofs.«147293_j89172111000348_1_alg».proof.Proof.RefRead

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 4000000 in
/-- At the second kernel's entry the array of neighbourhood sums is the reference's stage 48 of (x, edge_index, W_conv,
    b_conv), given that the first kernel's result is the reference's first product of (x, W_conv) and that the index
    array and the bias are as launched. -/
theorem sums_eq (m : (ℓ : Loc Cert.KernelIdeal.nD Cert.KernelIdeal.τ Cert.KernelIdeal.sig) → Buf (Elt F) ℓ) (ρ : Dev Cert.KernelIdeal.nD → PrngReg) (c : Dev Cert.KernelIdeal.nD)
    (x0 : (⟨Cert.ReferenceIdeal.S100000x64, .f32⟩ : BufTy).Contents (Elt F)) (x1 : (⟨Cert.ReferenceIdeal.S2x1600000, .i32⟩ : BufTy).Contents (Elt F))
    (x2 : (⟨Cert.ReferenceIdeal.S64x64, .f32⟩ : BufTy).Contents (Elt F)) (x3 : (⟨Cert.ReferenceIdeal.S64, .f32⟩ : BufTy).Contents (Elt F))
    (h0 : Cert.KernelIdeal.Gen.W1 m ρ c (Proc.devRef .tc Cert.KernelIdeal.main_v0) = Cert.ReferenceIdeal.ReadP.val_main_v0 (F := F) x0 x2)
    (h1 : Cert.KernelIdeal.Gen.W1 m ρ c (Proc.devRef .tc Cert.KernelIdeal.main_arg1) = x1)
    (h3 : Cert.KernelIdeal.Gen.W1 m ρ c (Proc.devRef .tc Cert.KernelIdeal.main_arg3) = x3) :
    Cert.KernelIdeal.Gen.W4 m ρ c (Proc.devRef .tc Cert.KernelIdeal.main_v48) = Cert.ReferenceIdeal.ReadP.val_main_v48 (F := F) x0 x1 x2 x3 := by
  subst h1 h3
  unfold Cert.ReferenceIdeal.ReadP.val_main_v48 Cert.ReferenceIdeal.ReadP.val_main_v45 Cert.ReferenceIdeal.ReadP.val_main_v42 Cert.ReferenceIdeal.ReadP.val_main_v39
  rw [← h0]
  show StableHlo.after Cert.KernelIdeal.Gen.hostOps1_2 (StableHlo.after Cert.KernelIdeal.Gen.hostOps1_1 (StableHlo.after Cert.KernelIdeal.Gen.hostOps1
    (Cert.KernelIdeal.Gen.W1 m ρ c))) (Proc.devRef .tc Cert.KernelIdeal.main_v48) = _
  simp only [Cert.KernelIdeal.Gen.hostOps1, Cert.KernelIdeal.Gen.hostOps1_1, Cert.KernelIdeal.Gen.hostOps1_2]
  after_results_simp
  rfl

end Cert.Bridge

end
-- ==== Proof.RefValue.lean ====
/-
  THE REFERENCE, ROW BY ROW.  After the neighbourhood sums (stage 48 of the reference's run, bias included) the
  reference rectifies, normalises each row, applies gain and offset, multiplies by W1, adds b1 and rectifies, all
  with whole-array host operations.  Read at an entry (r, q) through the stage lemmas of the run, every one of those
  operations touches row r only: the keepdims columns are read in row r, the broadcast parameters at their own
  coordinate, each host sum is its initial word 0 plus the sum over the 64 entries of the row.  So the result is
  `rowPost` of row r of the sums, and the first product is x · W_conv row by row.
-/
import proofs.«147293_j89172111000348_1_alg».proof.Proof.RefRead
import proofs.«147293_j89172111000348_1_alg».proof.Proof.RowSpec
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Rows

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 x4 x5 : (⟨S64, .f32⟩ : BufTy).Contents (Elt Ideal))
  (x6 : (⟨S64x128, .f32⟩ : BufTy).Contents (Elt Ideal)) (x7 : (⟨S128, .f32⟩ : BufTy).Contents (Elt Ideal))

/-- The first product, entry by entry: row `i 0` of x times column `i 1` of W_conv. -/
theorem ref_mm : val_main_v0 (F := Ideal) x0 x2 = mmArr x0 x2 := by
  funext i
  rw [val_main_v0_apply]
  unfold mmArr rowDot
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]; rfl

/-- Row r of the neighbourhood sums. -/
abbrev srow (r : Fin 100000) : Fin 64 → EReal := fun k => val_main_v48 (F := Ideal) x0 x1 x2 x3 (ix2 r k)

theorem relu_at (r : Fin 100000) (k : Fin 64) :
    val_main_v49 (F := Ideal) x0 x1 x2 x3 (ix2 r k) = rowRelu (srow x0 x1 x2 x3 r) k := by
  rw [val_main_v49_apply, val_main_call1_v0_apply, val_main_call1_cst_apply]; rfl

theorem mean_at (r : Fin 100000) (u : Fin 1) :
    val_main_v53 (F := Ideal) x0 x1 x2 x3 (ix2 r u) = rowMean (rowRelu (srow x0 x1 x2 x3 r)) := by
  rw [val_main_v53_apply, val_main_v51_apply, val_main_v50_apply, val_main_v52_apply, val_main_cst_11_apply, val_main_cst_10_apply]
  unfold rowMean
  show Ideal.div (Ideal.ofBits .f32 0x00000000#32 + ∑ k : Fin 64, val_main_v49 (F := Ideal) x0 x1 x2 x3 (idx_main_v50 (idx_main_v51 (ix2 r u)) k)) lenW = _
  rw [Ideal.ofBits_zero_f32, zero_add]
  refine congrArg (fun s => Ideal.div s lenW) (Finset.sum_congr rfl fun k _ => ?_)
  rw [← relu_at]
  exact congrArg _ (funext fun a => Fin.ext (by match a with | ⟨0, _⟩ => rfl | ⟨1, _⟩ => rfl))

theorem centred_at (r : Fin 100000) (k : Fin 64) :
    val_main_v55 (F := Ideal) x0 x1 x2 x3 (ix2 r k) = rowCentred (srow x0 x1 x2 x3 r) k := by
  have e : idx_main_v54 (ix2 r k) = ix2 r (0 : Fin 1) := funext fun a => Fin.ext (by match a with | ⟨0, _⟩ => rfl | ⟨1, _⟩ => rfl)
  rw [val_main_v55_apply, val_main_v54_apply, relu_at, e, mean_at]; rfl

theorem centred_at' (r : Fin 100000) (k : Fin 64) :
    val_main_v62 (F := Ideal) x0 x1 x2 x3 (ix2 r k) = rowCentred (srow x0 x1 x2 x3 r) k := by
  have e : idx_main_v61 (ix2 r k) = ix2 r (0 : Fin 1) := funext fun a => Fin.ext (by match a with | ⟨0, _⟩ => rfl | ⟨1, _⟩ => rfl)
  rw [val_main_v62_apply, val_main_v61_apply, relu_at, e, mean_at]; rfl

theorem meansq_at (r : Fin 100000) (u : Fin 1) :
    val_main_v60 (F := Ideal) x0 x1 x2 x3 (ix2 r u) = rowMean (fun k => rowCentred (srow x0 x1 x2 x3 r) k * rowCentred (srow x0 x1 x2 x3 r) k) := by
  rw [val_main_v60_apply, val_main_v58_apply, val_main_v57_apply, val_main_v59_apply, val_main_cst_13_apply, val_main_cst_12_apply]
  unfold rowMean
  show Ideal.div (Ideal.ofBits .f32 0x00000000#32 + ∑ k : Fin 64, val_main_v56 (F := Ideal) x0 x1 x2 x3 (idx_main_v57 (idx_main_v58 (ix2 r u)) k)) lenW = _
  rw [Ideal.ofBits_zero_f32, zero_add]
  refine congrArg (fun s => Ideal.div s lenW) (Finset.sum_congr rfl fun k _ => ?_)
  have e : idx_main_v57 (idx_main_v58 (ix2 r u)) k = ix2 r k := funext fun a => Fin.ext (by match a with | ⟨0, _⟩ => rfl | ⟨1, _⟩ => rfl)
  rw [e, val_main_v56_apply, centred_at]; rfl

theorem scale_at (r : Fin 100000) (u : Fin 1) :
    val_main_v65 (F := Ideal) x0 x1 x2 x3 (ix2 r u) = rowScale (srow x0 x1 x2 x3 r) := by
  rw [val_main_v65_apply, val_main_v64_apply, meansq_at, val_main_v63_apply, val_main_cst_14_apply]; rfl

theorem norm_at (r : Fin 100000) (k : Fin 64) :
    val_main_v73 (F := Ideal) x0 x1 x2 x3 x4 x5 (ix2 r k) = rowNorm x4 x5 (srow x0 x1 x2 x3 r) k := by
  have e1 : idx_main_v66 (ix2 r k) = ix2 r (0 : Fin 1) := funext fun a => Fin.ext (by match a with | ⟨0, _⟩ => rfl | ⟨1, _⟩ => rfl)
  have e2 : idx_main_v68 (idx_main_v69 (ix2 r k)) = ix1 k := funext fun a => Fin.ext (by match a with | ⟨0, _⟩ => rfl)
  have e3 : idx_main_v71 (idx_main_v72 (ix2 r k)) = ix1 k := funext fun a => Fin.ext (by match a with | ⟨0, _⟩ => rfl)
  rw [val_main_v73_apply, val_main_v70_apply, val_main_v67_apply, centred_at', val_main_v66_apply, e1, scale_at,
    val_main_v69_apply, val_main_v68_apply, e2, val_main_v72_apply, val_main_v71_apply, e3]; rfl

theorem post_at (r : Fin 100000) (q : Fin 128) :
    val_main_v78 (F := Ideal) x0 x1 x2 x3 x4 x5 x6 x7 (ix2 r q) = rowPost x4 x5 x6 x7 (srow x0 x1 x2 x3 r) q := by
  have e7 : idx_main_v75 (idx_main_v76 (ix2 r q)) = ix1 q := funext fun a => Fin.ext (by match a with | ⟨0, _⟩ => rfl)
  rw [val_main_v78_apply, val_main_v77_apply, val_main_v74_apply, val_main_v76_apply, val_main_v75_apply, e7,
    val_main_call2_v0_apply, val_main_call2_cst_apply]
  unfold rowPost rowDot
  show max (∑ k : Fin 64, val_main_v73 (F := Ideal) x0 x1 x2 x3 x4 x5 (lidx_main_v74 (ix2 r q) k) * x6 (ridx_main_v74 (ix2 r q) k) + x7 (ix1 q)) zeroW = _
  refine congrArg (fun s => max (s + x7 (ix1 q)) zeroW) (Finset.sum_congr rfl fun k _ => ?_)
  have el : lidx_main_v74 (ix2 r q) k = ix2 r k := funext fun a => Fin.ext (by match a with | ⟨0, _⟩ => rfl | ⟨1, _⟩ => rfl)
  have er : ridx_main_v74 (ix2 r q) k = ix2 k q := funext fun a => Fin.ext (by match a with | ⟨0, _⟩ => rfl | ⟨1, _⟩ => rfl)
  rw [el, er, norm_at]

/-- The reference's result is `postArr` of its neighbourhood sums and the four parameters. -/
theorem ref_post : val_main_v78 (F := Ideal) x0 x1 x2 x3 x4 x5 x6 x7 = postArr (val_main_v48 (F := Ideal) x0 x1 x2 x3) x4 x5 x6 x7 := by
  funext i
  obtain ⟨r, q, rfl⟩ : ∃ (r : Fin 100000) (q : Fin 128), i = ix2 r q := ⟨i 0, i 1, eq_ix2 i⟩
  rw [post_at]; rfl

end Cert.ReferenceIdeal.RefValue

end
-- ==== Proof.KernelValue.lean ====
/-
  THE KERNEL PROGRAM'S RESULT.  The run's last boundary holds, at the result buffer, what the second region leaves:
  `postArr` of the sums and parameters that region found.  The parameters are as launched (no host operation and no
  region writes an argument); the sums are the reference's stage 48 of the launched (x, edge_index, W_conv, b_conv),
  because the first region leaves x · W_conv row by row, which is the reference's first product, and the host
  operations in between are the reference's own.  So the result is named as one function of the launch memory.
-/
import proofs.«147293_j89172111000348_1_alg».proof.Proof.KernelRun
import proofs.«147293_j89172111000348_1_alg».proof.Proof.MmArray
import proofs.«147293_j89172111000348_1_alg».proof.Proof.PostArray
import proofs.«147293_j89172111000348_1_alg».proof.Proof.HostBridge
import proofs.«147293_j89172111000348_1_alg».proof.Proof.RefValue

set_option maxRecDepth 16384

noncomputable section

namespace Cert.KernelIdeal.Whole

open Cert.KernelIdeal Cert.KernelIdeal.Gen Idealize.ShloMosaic Idealize.ShloMosaic.TcCoe Idealize.SL.Sem Cert.Rows

variable (m : (ℓ : Loc nD τ sig) → Buf (Elt Ideal) ℓ) (ρ : Dev nD → PrngReg)

/-- The last boundary's contents at the result buffer, as a function of the launch memory. -/
theorem boundary_result (c : Dev nD) :
    W5 m ρ c (Proc.devRef .tc main_v49)
      = postArr (Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5)) (m ((c.tc : Thread nD τ).loc main_arg6)) (m ((c.tc : Thread nD τ).loc main_arg7)) := by
  have h0 : W1 m ρ c (Proc.devRef .tc main_v0) = Cert.ReferenceIdeal.ReadP.val_main_v0 (F := Ideal) (m ((c.tc : Thread nD τ).loc main_arg0)) (m ((c.tc : Thread nD τ).loc main_arg2)) :=
    (W1_arr m ρ c 2).trans ((Blocks.mm_final (V0 m ρ) c).trans (Cert.ReferenceIdeal.RefValue.ref_mm _ _).symm)
  have h1 : W1 m ρ c (Proc.devRef .tc main_arg1) = (m ((c.tc : Thread nD τ).loc main_arg1)) := (W1_of_ne m ρ c main_arg1 (by decide)).trans rfl
  have h3 : W1 m ρ c (Proc.devRef .tc main_arg3) = (m ((c.tc : Thread nD τ).loc main_arg3)) := (W1_of_ne m ρ c main_arg3 (by decide)).trans rfl
  have hs := Cert.Bridge.sums_eq m ρ c _ _ _ _ h0 h1 h3
  have h4 : W4 m ρ c (Proc.devRef .tc main_arg4) = (m ((c.tc : Thread nD τ).loc main_arg4)) :=
    ((W5_arr m ρ c 1).trans (((dat1 (V4 m ρ) c).arrAt_in 1 rfl _).trans (A_eq1 (V4 m ρ) c 1))).symm.trans (W5_main_arg4 m ρ c)
  have h5 : W4 m ρ c (Proc.devRef .tc main_arg5) = (m ((c.tc : Thread nD τ).loc main_arg5)) :=
    ((W5_arr m ρ c 2).trans (((dat1 (V4 m ρ) c).arrAt_in 2 rfl _).trans (A_eq1 (V4 m ρ) c 2))).symm.trans (W5_main_arg5 m ρ c)
  have h6 : W4 m ρ c (Proc.devRef .tc main_arg6) = (m ((c.tc : Thread nD τ).loc main_arg6)) :=
    ((W5_arr m ρ c 3).trans (((dat1 (V4 m ρ) c).arrAt_in 3 rfl _).trans (A_eq1 (V4 m ρ) c 3))).symm.trans (W5_main_arg6 m ρ c)
  have h7 : W4 m ρ c (Proc.devRef .tc main_arg7) = (m ((c.tc : Thread nD τ).loc main_arg7)) :=
    ((W5_arr m ρ c 4).trans (((dat1 (V4 m ρ) c).arrAt_in 4 rfl _).trans (A_eq1 (V4 m ρ) c 4))).symm.trans (W5_main_arg7 m ρ c)
  refine (W5_arr m ρ c 5).trans ((Blocks.post_final (V4 m ρ) c).trans ?_)
  show postArr (W4 m ρ c (Proc.devRef .tc main_v48)) (W4 m ρ c (Proc.devRef .tc main_arg4)) (W4 m ρ c (Proc.devRef .tc main_arg5))
    (W4 m ρ c (Proc.devRef .tc main_arg6)) (W4 m ρ c (Proc.devRef .tc main_arg7)) = _
  rw [hs, h4, h5, h6, h7]

/-- Every weakly fair execution of the kernel program ends with the result buffer at that function of the launch
    memory and the arguments as launched. -/
theorem run : θ_run defs (onTc (τ := τ) (main (F := Ideal))) ⟨m, fun _ => 0, ρ⟩ (fun r => ∀ c : Dev nD,
      r.2.mem ((c.tc : Thread nD τ).loc main_v49)
        = postArr (Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (boundary_result m ρ c), (h c).2.2.1, (h c).2⟩) (run_named m ρ)

end Cert.KernelIdeal.Whole

end
-- ==== Proof.lean ====
/-
  The kernel program computes, for a graph of 100000 nodes with 64 features each: h = x · W_conv (a kernel over
  twenty row blocks), the symmetric-normalised neighbourhood sums of h with self loops plus a bias (host operations),
  and per row: rectify, normalise, gain and offset, times W1, plus b1, rectify (a second kernel over twenty row
  blocks).  The reference computes the same with whole-array host operations.

  Frames: the two kernel programs' are their generated several-regions launches; the reference's is its run with the
  result dropped.  The idealization rewrote nothing, so `preserves` is trivial.  Equality of the results on the
  extended reals: the kernel program's result is `postArr` of (the reference's stage-48 function of the launched
  x, edge_index, W_conv, b_conv) and the four launched parameters (Proof/KernelValue.lean); the reference's result
  is the same function of its own arguments (Proof/RefValue.lean), which agree with the kernel program's.  No
  algebraic law beyond reading both sides row by row is needed, so the finiteness of the inputs is not used.
-/
import proofs.«147293_j89172111000348_1_alg».proof.Defs
import proofs.«147293_j89172111000348_1_alg».proof.Proof.Gen.Kernel
import proofs.«147293_j89172111000348_1_alg».proof.Proof.Gen.Kernel.Skeleton
import proofs.«147293_j89172111000348_1_alg».proof.Proof.Gen.Kernel.Launch
import proofs.«147293_j89172111000348_1_alg».proof.Proof.Gen.Kernel.Points
import proofs.«147293_j89172111000348_1_alg».proof.Proof.Gen.Kernel.Frame
import proofs.«147293_j89172111000348_1_alg».proof.Proof.Gen.KernelIdeal
import proofs.«147293_j89172111000348_1_alg».proof.Proof.Gen.KernelIdeal.Skeleton
import proofs.«147293_j89172111000348_1_alg».proof.Proof.Gen.KernelIdeal.Launch
import proofs.«147293_j89172111000348_1_alg».proof.Proof.Gen.KernelIdeal.Points
import proofs.«147293_j89172111000348_1_alg».proof.Proof.Gen.KernelIdeal.Frame
import proofs.«147293_j89172111000348_1_alg».proof.Proof.Gen.ReferenceIdeal
import proofs.«147293_j89172111000348_1_alg».proof.Proof.Gen.Pre_finite_inputs
import proofs.«147293_j89172111000348_1_alg».proof.Proof.KernelValue
import proofs.«147293_j89172111000348_1_alg».proof.Proof.RefValue
import proofs.«147293_j89172111000348_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2.2) (Cert.ReferenceIdeal.RunP.run (F := Ideal) m ρ)

/-- Both programs end with the same result: one function of arguments that agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun r h c => ⟨(h c).1.trans ?_, (h c).2.1.trans (hagree c).2.1, (h c).2.2⟩)
    (Cert.ReferenceIdeal.RunP.run (F := Ideal) m' ρ')
  rw [Cert.ReferenceIdeal.ReadP.val_main_v78_eq, Cert.ReferenceIdeal.RefValue.ref_post,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
